-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x256x64 : Shape := ⟨3, ![64, 256, 64]⟩
abbrev S128x64 : Shape := ⟨2, ![128, 64]⟩
abbrev S1x128 : Shape := ⟨2, ![1, 128]⟩
abbrev S1 : Shape := ⟨1, ![1]⟩
abbrev S_ : Shape := ⟨0, ![]⟩

class Facts : Prop where
  bcast_S_S64x256x64 : S_.BroadcastsInDim S64x256x64 (![] : Fin 0 → Fin S64x256x64.rank)
  reducesTo_S64x256x64_S_d0_1_2 : S64x256x64.ReducesTo [0, 1, 2] S_
  h_S_ : 0 < S_.numel
  bcast_S_S128x64 : S_.BroadcastsInDim S128x64 (![] : Fin 0 → Fin S128x64.rank)
  reducesTo_S128x64_S_d0_1 : S128x64.ReducesTo [0, 1] S_
  bcast_S_S1x128 : S_.BroadcastsInDim S1x128 (![] : Fin 0 → Fin S1x128.rank)
  reducesTo_S1x128_S_d0_1 : S1x128.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  main_v18

def fn {F : FTy → Type} [FloatOps F] (main_arg0 : FVec F S64x256x64 .f32) (main_arg1 : FVec F S128x64 .f32) (main_arg2 : FVec F S1x128 .f32) (main_arg3 : FVec F S1 .f32) : IVec S_ 1 :=
  let main_v0 : FVec F S64x256x64 .f32 := Host.absf main_arg0
  let main_cst : FVec F S_ .f32 := constant S_ .f32 0x7F800000#32
  let main_v1 : FVec F S64x256x64 .f32 := broadcastInDim S64x256x64 ![] bcast_S_S64x256x64 main_cst
  let main_v2 : IVec S64x256x64 1 := cmpf .olt main_v0 main_v1
  let main_c : IVec S_ 1 := constantI S_ 1 1#1
  let main_v3 : IVec S_ 1 := (fun x v => Host.reduce IntOp.andi x v reducesTo_S64x256x64_S_d0_1_2 h_S_) main_v2 main_c
  let main_v4 : FVec F S128x64 .f32 := Host.absf main_arg1
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S1x128 .f32 := Host.absf main_arg2
  let main_cst_2 : FVec F S_ .f32 := constant S_ .f32 0x7F800000#32
  let main_v10 : FVec F S1x128 .f32 := broadcastInDim S1x128 ![] bcast_S_S1x128 main_cst_2
  let main_v11 : IVec S1x128 1 := cmpf .olt main_v9 main_v10
  let main_c_3 : IVec S_ 1 := constantI S_ 1 1#1
  let main_v12 : IVec S_ 1 := (fun x v => Host.reduce IntOp.andi x v reducesTo_S1x128_S_d0_1 h_S_) main_v11 main_c_3
  let main_v13 : IVec S_ 1 := andi main_v8 main_v12
  let main_v14 : FVec F S1 .f32 := Host.absf main_arg3
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_v13 main_v16
-- ==== Kernel.lean ====
abbrev S64x256x64 : Shape := ⟨3, ![64, 256, 64]⟩
abbrev S128x64 : Shape := ⟨2, ![128, 64]⟩
abbrev S1x128 : Shape := ⟨2, ![1, 128]⟩
abbrev S1 : Shape := ⟨1, ![1]⟩
abbrev S64x1 : Shape := ⟨2, ![64, 1]⟩
abbrev S32x256x64 : Shape := ⟨3, ![32, 256, 64]⟩
abbrev S32x1 : Shape := ⟨2, ![32, 1]⟩
abbrev S8192x64 : Shape := ⟨2, ![8192, 64]⟩
abbrev S64x128 : Shape := ⟨2, ![64, 128]⟩
abbrev S8192x128 : Shape := ⟨2, ![8192, 128]⟩
abbrev S32x256x128 : Shape := ⟨3, ![32, 256, 128]⟩
abbrev S32x256 : Shape := ⟨2, ![32, 256]⟩
abbrev S128 : Shape := ⟨1, ![128]⟩
abbrev S32x256x1 : Shape := ⟨3, ![32, 256, 1]⟩
abbrev S1x1x128 : Shape := ⟨3, ![1, 1, 128]⟩
abbrev S32x128 : Shape := ⟨2, ![32, 128]⟩
abbrev S32 : Shape := ⟨1, ![32]⟩
abbrev S1x1 : Shape := ⟨2, ![1, 1]⟩

abbrev nBuf : Space → Nat
  | .hbm => 5
  | .vmem => 7
  | .smem => 0
  | _ => 0

abbrev bufTy : (tb : Table) → Fin (tcTables nBuf tb) → BufTy
  | .hbm, ⟨0, _⟩ => ⟨S64x256x64, .f32⟩
  | .hbm, ⟨1, _⟩ => ⟨S128x64, .f32⟩
  | .hbm, ⟨2, _⟩ => ⟨S1x128, .f32⟩
  | .hbm, ⟨3, _⟩ => ⟨S1, .f32⟩
  | .hbm, ⟨4, _⟩ => ⟨S64x1, .f32⟩
  | .local _ .vmem, ⟨0, _⟩ => ⟨S32x256x64, .f32⟩
  | .local _ .vmem, ⟨1, _⟩ => ⟨S32x256x64, .f32⟩
  | .local _ .vmem, ⟨2, _⟩ => ⟨S128x64, .f32⟩
  | .local _ .vmem, ⟨3, _⟩ => ⟨S1x128, .f32⟩
  | .local _ .vmem, ⟨4, _⟩ => ⟨S1, .f32⟩
  | .local _ .vmem, ⟨5, _⟩ => ⟨S32x1, .f32⟩
  | .local _ .vmem, ⟨6, _⟩ => ⟨S32x1, .f32⟩
  | _, _ => ⟨S64x256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S32x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S32x256x64_S32x256x64_0_0_0 : ∀ a, (![0, 0, 0] : Fin 3 → Nat) a + S32x256x64.size a ≤ S32x256x64.size a
  h_S32x256x64 : 0 < S32x256x64.numel
  inb_S128x64_S128x64_0_0 : ∀ a, (![0, 0] : Fin 2 → Nat) a + S128x64.size a ≤ S128x64.size a
  h_S128x64 : 0 < S128x64.numel
  shapeCasts_S32x256x64_S8192x64 : S32x256x64.ShapeCasts S8192x64
  bitsLt_bf16_f32 : FTy.bits .bf16 < FTy.bits .f32
  transposes_S128x64_p1_0_S64x128 : S128x64.Transposes [1, 0] S64x128
  shapeCasts_S8192x128_S32x256x128 : S8192x128.ShapeCasts S32x256x128
  reduces_S32x256x64_S32x256 : S32x256x64.Reduces [2] S32x256
  reduces_S128x64_S128 : S128x64.Reduces [1] S128
  shapeCasts_S32x256_S32x256x1 : S32x256.ShapeCasts S32x256x1
  shapeCasts_S128_S1x1x128 : S128.ShapeCasts S1x1x128
  broadcasts_S32x256x1_S32x256x128 : S32x256x1.Broadcasts S32x256x128
  broadcasts_S1x1x128_S32x256x128 : S1x1x128.Broadcasts S32x256x128
  reduces_S32x256x128_S32x128 : S32x256x128.Reduces [1] S32x128
  inb_S1x128_S1x128_0_0 : ∀ a, (![0, 0] : Fin 2 → Nat) a + S1x128.size a ≤ S1x128.size a
  h_S1x128 : 0 < S1x128.numel
  inb_S1_S1_0 : ∀ a, (![0] : Fin 1 → Nat) a + S1.size a ≤ S1.size a
  h_S1 : 0 < S1.numel
  broadcasts_S1x128_S32x128 : S1x128.Broadcasts S32x128
  reduces_S32x128_S32 : S32x128.Reduces [1] S32
  shapeCasts_S32_S32x1 : S32.ShapeCasts S32x1
  shapeCasts_S1_S1x1 : S1.ShapeCasts S1x1
  broadcasts_S1x1_S32x1 : S1x1.Broadcasts S32x1
  inb_S32x1_S32x1_0_0 : ∀ a, (![0, 0] : Fin 2 → Nat) a + S32x1.size a ≤ S32x1.size a
  h_S32x1 : 0 < S32x1.numel
  dot_S8192x64_S64x128_S8192x128_1_0_0_1_n_n_wf : DotDims.WF S8192x64 S64x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x256x64.size a ≤ S64x256x64.size a
  hwx0_0 : ∀ i : grid0.Coords, EltTy.bits .f32 = 32 ∨ (Rect.block (s := S64x256x64) S32x256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1.size a ≤ S1.size a
  hwx0_3 : ∀ i : grid0.Coords, EltTy.bits .f32 = 32 ∨ (Rect.block (s := S1) S1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S32x1.size a ≤ S64x1.size a
  hwx0_4 : ∀ i : grid0.Coords, EltTy.bits .f32 = 32 ∨ (Rect.block (s := S64x1) S32x1.size (cc0_transform_4 i) (hinb0_4 i)).WholeWords (EltTy.packing .f32)

variable [Facts₀]

def dot_S8192x64_S64x128_S8192x128_1_0_0_1_n_n : DotDims S8192x64 S64x128 S8192x128 where
  lhsContracting := [1]
  rhsContracting := [0]
  lhsNonContracting := [0]
  rhsNonContracting := [1]
  lhsBatch := []
  rhsBatch := []
  wf := dot_S8192x64_S64x128_S8192x128_1_0_0_1_n_n_wf

abbrev win0_0 : Pipeline.Window sig grid0 :=
  Pipeline.Window.ofSpec (Memref.whole main_arg0) S32x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S32x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S64x256x64 : Shape := ⟨3, ![64, 256, 64]⟩
abbrev S128x64 : Shape := ⟨2, ![128, 64]⟩
abbrev S1x128 : Shape := ⟨2, ![1, 128]⟩
abbrev S1 : Shape := ⟨1, ![1]⟩
abbrev S64x256x1x64 : Shape := ⟨4, ![64, 256, 1, 64]⟩
abbrev S1x1x128x64 : Shape := ⟨4, ![1, 1, 128, 64]⟩
abbrev S64x256x128x64 : Shape := ⟨4, ![64, 256, 128, 64]⟩
abbrev S_ : Shape := ⟨0, ![]⟩
abbrev S64x256x128 : Shape := ⟨3, ![64, 256, 128]⟩
abbrev S64x128 : Shape := ⟨2, ![64, 128]⟩
abbrev S128x1 : Shape := ⟨2, ![128, 1]⟩
abbrev S64x1 : Shape := ⟨2, ![64, 1]⟩
abbrev S1x1 : Shape := ⟨2, ![1, 1]⟩

abbrev nBuf : Space → Nat
  | .hbm => 28
  | .vmem => 0
  | .smem => 0
  | _ => 0

abbrev bufTy : (tb : Table) → Fin (tcTables nBuf tb) → BufTy
  | .hbm, ⟨0, _⟩ => ⟨S64x256x64, .f32⟩
  | .hbm, ⟨1, _⟩ => ⟨S128x64, .f32⟩
  | .hbm, ⟨2, _⟩ => ⟨S1x128, .f32⟩
  | .hbm, ⟨3, _⟩ => ⟨S1, .f32⟩
  | .hbm, ⟨4, _⟩ => ⟨S64x256x1x64, .f32⟩
  | .hbm, ⟨5, _⟩ => ⟨S1x1x128x64, .f32⟩
  | .hbm, ⟨6, _⟩ => ⟨S64x256x128x64, .f32⟩
  | .hbm, ⟨7, _⟩ => ⟨S64x256x128x64, .f32⟩
  | .hbm, ⟨8, _⟩ => ⟨S64x256x128x64, .f32⟩
  | .hbm, ⟨9, _⟩ => ⟨S64x256x128x64, .f32⟩
  | .hbm, ⟨10, _⟩ => ⟨S_, .f32⟩
  | .hbm, ⟨11, _⟩ => ⟨S64x256x128, .f32⟩
  | .hbm, ⟨12, _⟩ => ⟨S64x256x128, .f32⟩
  | .hbm, ⟨13, _⟩ => ⟨S_, .f32⟩
  | .hbm, ⟨14, _⟩ => ⟨S64x128, .f32⟩
  | .hbm, ⟨15, _⟩ => ⟨S128x1, .f32⟩
  | .hbm, ⟨16, _⟩ => ⟨S64x1, .f32⟩
  | .hbm, ⟨17, _⟩ => ⟨S1x1, .f32⟩
  | .hbm, ⟨18, _⟩ => ⟨S64x1, .f32⟩
  | .hbm, ⟨19, _⟩ => ⟨S64x1, .f32⟩
  | .hbm, ⟨20, _⟩ => ⟨S64x1, .f32⟩
  | .hbm, ⟨21, _⟩ => ⟨S64x1, .f32⟩
  | .hbm, ⟨22, _⟩ => ⟨S_, .f32⟩
  | .hbm, ⟨23, _⟩ => ⟨S64x1, .f32⟩
  | .hbm, ⟨24, _⟩ => ⟨S64x1, .f32⟩
  | .hbm, ⟨25, _⟩ => ⟨S_, .f32⟩
  | .hbm, ⟨26, _⟩ => ⟨S64x1, .f32⟩
  | .hbm, ⟨27, _⟩ => ⟨S64x1, .f32⟩
  | _, _ => ⟨S64x256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S64x256x64_S64x256x1x64_0_1_3 : S64x256x64.BroadcastsInDim S64x256x1x64 (![0, 1, 3] : Fin 3 → Fin S64x256x1x64.rank)
  bcast_S128x64_S1x1x128x64_2_3 : S128x64.BroadcastsInDim S1x1x128x64 (![2, 3] : Fin 2 → Fin S1x1x128x64.rank)
  bcast_S64x256x1x64_S64x256x128x64_0_1_2_3 : S64x256x1x64.BroadcastsInDim S64x256x128x64 (![0, 1, 2, 3] : Fin 4 → Fin S64x256x128x64.rank)
  bcast_S1x1x128x64_S64x256x128x64_0_1_2_3 : S1x1x128x64.BroadcastsInDim S64x256x128x64 (![0, 1, 2, 3] : Fin 4 → Fin S64x256x128x64.rank)
  reducesTo_S64x256x128x64_S64x256x128_d3 : S64x256x128x64.ReducesTo [3] S64x256x128
  h_S_ : 0 < S_.numel
  reducesTo_S64x256x128_S64x128_d1 : S64x256x128.ReducesTo [1] S64x128
  transposes_S1x128_S128x1_1_0 : S1x128.Transposes [1, 0] S128x1
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  dot_S64x128_S128x1_S64x1_1_0_0_1_n_n_wf : DotDims.WF S64x128 S128x1 S64x1 [1] [0] [0] [1] [] []

variable [Facts₀]

def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.Distance.lean ====
/-
  The mathematics of the certificate, free of any program.

  For a window `a` and a shapelet `b` (both of length `L`) the squared Euclidean distance can be written two ways:
  directly, `∑ (a l - b l)²`, or through the norm identity `‖a‖² + ‖b‖² - 2⟨a, b⟩`. Over the extended reals the two
  agree when every entry is a real number (the identity distributes a product over a sum, which fails at an
  infinity), and then both are the coercion of a NON-NEGATIVE real. On such values the square root is monotone, so it
  commutes with a minimum over windows, and clamping the minimum at zero changes nothing. These three facts are all
  that separates the two ways of computing the minimal distance to each shapelet; the linear classifier and the
  logistic on top are the same expression on both sides.
-/
import Idealize.ShloMosaic.PureOps.Ideal
import Idealize.ShloMosaic.PureOps.Ideal.Laws
import Idealize.ShloMosaic.Lib.ValueIdx

noncomputable section

namespace Cert.Shapelet

open Idealize.ShloMosaic Idealize.ShloMosaic.ValueIdx

/-! ## The float literals the two programs spell, as extended reals -/

/-- `+0.0` denotes `0`. -/
theorem ofBits_zero : Ideal.ofBits .f32 0x00000000#32 = 0 := by
  simp [Ideal.ofBits, Ideal.ieee]

/-- `1.0` denotes `1`. -/
theorem ofBits_one : Ideal.ofBits .f32 0x3F800000#32 = 1 := by
  simp [Ideal.ofBits, Ideal.ieee, -EReal.coe_mul]; norm_num

/-- `2.0` denotes the real `2`. -/
theorem ofBits_two : Ideal.ofBits .f32 0x40000000#32 = ((2 : ℝ) : EReal) := by
  simp [Ideal.ofBits, Ideal.ieee, -EReal.coe_mul]; norm_num

/-- The pattern `0x7F800000` denotes `+∞`, the neutral element of a minimum. -/
theorem ofBits_inf : Ideal.ofBits .f32 0x7F800000#32 = ⊤ := by
  simp [Ideal.ofBits, Ideal.ieee]

/-! ## Sums of reals inside the extended reals -/

/-- A finite sum of real numbers, taken in the extended reals, is the real sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-! ## The squared distance, two ways -/

/-- The squared distance through the norm identity: `(‖a‖² + ‖b‖²) - 2 ⟨a, b⟩`. -/
def sqDistExpanded {L : Nat} (a b : Fin L → EReal) : EReal :=
  ((∑ l, a l * a l) + (∑ l, b l * b l)) - ((2 : ℝ) : EReal) * (∑ l, a l * b l)

/-- The squared distance directly: `∑ (a l - b l)²`. -/
def sqDistDirect {L : Nat} (a b : Fin L → EReal) : EReal := ∑ l, (a l - b l) * (a l - b l)

/-- On real entries the direct form is the real sum of squares. -/
theorem sqDistDirect_coe {L : Nat} (a b : Fin L → ℝ) :
    sqDistDirect (fun l => (a l : EReal)) (fun l => (b l : EReal)) = ((∑ l, (a l - b l) * (a l - b l) : ℝ) : EReal) := by
  unfold sqDistDirect
  simp only [← EReal.coe_sub, ← EReal.coe_mul, coe_sum]

/-- On real entries the norm identity holds: the expanded form is the same real sum of squares. -/
theorem sqDistExpanded_coe {L : Nat} (a b : Fin L → ℝ) :
    sqDistExpanded (fun l => (a l : EReal)) (fun l => (b l : EReal)) = ((∑ l, (a l - b l) * (a l - b l) : ℝ) : EReal) := by
  unfold sqDistExpanded
  simp only [← EReal.coe_mul, coe_sum, ← EReal.coe_add, ← EReal.coe_sub]
  refine congrArg _ ?_
  rw [Finset.mul_sum, ← Finset.sum_add_distrib, ← Finset.sum_sub_distrib]
  exact Finset.sum_congr rfl fun l _ => by ring

/-- A sum of squares of reals is not negative. -/
theorem sumSq_nonneg {L : Nat} (a b : Fin L → ℝ) : 0 ≤ ∑ l, (a l - b l) * (a l - b l) :=
  Finset.sum_nonneg fun l _ => mul_self_nonneg _

/-! ## The square root and a minimum -/

/-- The square root of the extended reals (`-∞` below zero, `+∞` at `+∞`) is monotone. -/
theorem sqrt_mono : Monotone Ideal.sqrt := by
  intro x y hxy
  induction x using EReal.rec with
  | bot => exact bot_le
  | top => rw [top_le_iff.mp hxy]
  | coe r =>
    induction y using EReal.rec with
    | bot => exact absurd hxy (not_le.mpr (EReal.bot_lt_coe r))
    | top => exact le_top
    | coe s =>
      have hrs : r ≤ s := EReal.coe_le_coe_iff.mp hxy
      rw [Ideal.sqrt_coe, Ideal.sqrt_coe]
      by_cases hr : r < 0
      · rw [if_pos hr]; exact bot_le
      · rw [if_neg hr, if_neg (by linarith)]
        exact EReal.coe_le_coe_iff.mpr (Real.sqrt_le_sqrt hrs)

/-- So it commutes with a minimum over any finite family, whatever the starting value. -/
theorem sqrt_fold_min {ι : Type*} (s : Finset ι) (b : EReal) (g : ι → EReal) :
    Ideal.sqrt (s.fold min b g) = s.fold min (Ideal.sqrt b) (fun i => Ideal.sqrt (g i)) :=
  (Finset.fold_hom (op := min) (op' := min) (m := Ideal.sqrt) fun x y => sqrt_mono.map_min).symm

/-- The minimal distance, the kernel's way and the reference's: over non-negative reals `d w`, the root of the
    minimum clamped at zero (from `+∞`) is the minimum of the roots (from `+∞`). -/
theorem sqrt_max_fold_min {ι : Type*} (s : Finset ι) (d : ι → ℝ) (hd : ∀ i, 0 ≤ d i) :
    Ideal.sqrt (max (s.fold min ⊤ fun i => (d i : EReal)) 0) = s.fold min ⊤ fun i => Ideal.sqrt (d i : EReal) := by
  have h0 : (0 : EReal) ≤ s.fold min ⊤ fun i => (d i : EReal) :=
    (Finset.le_fold_min _).mpr ⟨le_top, fun i _ => EReal.coe_nonneg.mpr (hd i)⟩
  rw [max_eq_left h0, sqrt_fold_min, Ideal.sqrt_top]

/-! ## The result, two ways

For a batch of `B` series of `256` windows of length `64`, `128` shapelets of length `64`, a weight row and a bias:
the probability `σ(∑ₙ dist(b, n) · w(n) + bias)` of series `b`, `dist(b, n)` the least distance from a window of
series `b` to shapelet `n`. -/

/-- Window `w` of series `b`. -/
abbrev window {B : Nat} (x : (⟨3, ![B, 256, 64]⟩ : Shape).Idx → EReal) (b : Fin B) (w : Fin 256) : Fin 64 → EReal :=
  fun l => x (ix3 b w l)

/-- Shapelet `n`. -/
abbrev shapelet (s : (⟨2, ![128, 64]⟩ : Shape).Idx → EReal) (n : Fin 128) : Fin 64 → EReal := fun l => s (ix2 n l)

/-- The reference's way, for series `b`: the least root of the direct squared distance. -/
def rowDirect {B : Nat} (x : (⟨3, ![B, 256, 64]⟩ : Shape).Idx → EReal) (s : (⟨2, ![128, 64]⟩ : Shape).Idx → EReal)
    (cw : (⟨2, ![1, 128]⟩ : Shape).Idx → EReal) (cb : (⟨1, ![1]⟩ : Shape).Idx → EReal) (b : Fin B) : EReal :=
  Ideal.logistic ((∑ n : Fin 128,
      ((Finset.univ : Finset (Fin 256)).fold min ⊤ fun w => Ideal.sqrt (sqDistDirect (window x b w) (shapelet s n)))
        * cw (ix2 0 n)) + cb (ix1 0))

/-- The kernel's way, for series `b`: the root of the least expanded squared distance, clamped at zero. -/
def rowExpanded {B : Nat} (x : (⟨3, ![B, 256, 64]⟩ : Shape).Idx → EReal) (s : (⟨2, ![128, 64]⟩ : Shape).Idx → EReal)
    (cw : (⟨2, ![1, 128]⟩ : Shape).Idx → EReal) (cb : (⟨1, ![1]⟩ : Shape).Idx → EReal) (b : Fin B) : EReal :=
  Ideal.logistic ((∑ n : Fin 128,
      Ideal.sqrt (max ((Finset.univ : Finset (Fin 256)).fold min ⊤ fun w => sqDistExpanded (window x b w) (shapelet s n)) 0)
        * cw (ix2 0 n)) + cb (ix1 0))

/-- The two ways agree when the series and the shapelets hold real numbers (the weights and the bias may be anything). -/
theorem rowExpanded_eq_rowDirect {B : Nat} (x : (⟨3, ![B, 256, 64]⟩ : Shape).Idx → EReal)
    (s : (⟨2, ![128, 64]⟩ : Shape).Idx → EReal) (cw : (⟨2, ![1, 128]⟩ : Shape).Idx → EReal) (cb : (⟨1, ![1]⟩ : Shape).Idx → EReal)
    (hx : ∀ j, ∃ r : ℝ, x j = r) (hs : ∀ j, ∃ r : ℝ, s j = r) (b : Fin B) : rowExpanded x s cw cb b = rowDirect x s cw cb b := by
  choose xr hxr using hx
  choose sr hsr using hs
  unfold rowExpanded rowDirect
  refine congrArg (fun z => Ideal.logistic (z + cb (ix1 0))) (Finset.sum_congr rfl fun n _ => congrArg (· * cw (ix2 0 n)) ?_)
  have eE : ∀ w : Fin 256, sqDistExpanded (window x b w) (shapelet s n)
      = ((∑ l, (xr (ix3 b w l) - sr (ix2 n l)) * (xr (ix3 b w l) - sr (ix2 n l)) : ℝ) : EReal) := fun w => by
    rw [← sqDistExpanded_coe]; exact congrArg₂ _ (funext fun l => hxr _) (funext fun l => hsr _)
  have eD : ∀ w : Fin 256, sqDistDirect (window x b w) (shapelet s n)
      = ((∑ l, (xr (ix3 b w l) - sr (ix2 n l)) * (xr (ix3 b w l) - sr (ix2 n l)) : ℝ) : EReal) := fun w => by
    rw [← sqDistDirect_coe]; exact congrArg₂ _ (funext fun l => hxr _) (funext fun l => hsr _)
  simp only [eE, eD]
  exact sqrt_max_fold_min _ _ fun w => sumSq_nonneg _ _

/-- The result for a series reads the batch only in that series' row, and everything entry by entry: two sets of
    arguments that agree on the row, on every shapelet, weight and the bias give the same result. -/
theorem rowExpanded_congr {B B' : Nat} (x : (⟨3, ![B, 256, 64]⟩ : Shape).Idx → EReal) (x' : (⟨3, ![B', 256, 64]⟩ : Shape).Idx → EReal)
    (s s' : (⟨2, ![128, 64]⟩ : Shape).Idx → EReal) (cw cw' : (⟨2, ![1, 128]⟩ : Shape).Idx → EReal) (cb cb' : (⟨1, ![1]⟩ : Shape).Idx → EReal)
    (b : Fin B) (b' : Fin B') (hx : ∀ w l, x (ix3 b w l) = x' (ix3 b' w l)) (hs : ∀ n l, s (ix2 n l) = s' (ix2 n l))
    (hw : ∀ n, cw (ix2 0 n) = cw' (ix2 0 n)) (hb : cb (ix1 0) = cb' (ix1 0)) :
    rowExpanded x s cw cb b = rowExpanded x' s' cw' cb' b' := by
  have ew : ∀ w, window x b w = window x' b' w := fun w => funext fun l => hx w l
  have es : ∀ n, shapelet s n = shapelet s' n := fun n => funext fun l => hs n l
  unfold rowExpanded
  rw [hb]
  refine congrArg (fun z => Ideal.logistic (z + cb' (ix1 0))) (Finset.sum_congr rfl fun n _ => ?_)
  rw [hw n, es n]
  refine congrArg (fun z => Ideal.sqrt (max z 0) * cw' (ix2 0 n)) ?_
  exact congrArg (fun f => Finset.fold min ⊤ f Finset.univ) (funext fun w => congrArg (sqDistExpanded · (shapelet s' n)) (ew w))

/-- The series an index of the `[B, 1]` result belongs to. -/
abbrev seriesOf {B : Nat} (i : (⟨2, ![B, 1]⟩ : Shape).Idx) : Fin B := ⟨(i 0).val, (i 0).isLt⟩

/-- The `[B, 1]` result the reference's way, -/
def probDirect {B : Nat} (x : (⟨3, ![B, 256, 64]⟩ : Shape).Idx → EReal) (s : (⟨2, ![128, 64]⟩ : Shape).Idx → EReal)
    (cw : (⟨2, ![1, 128]⟩ : Shape).Idx → EReal) (cb : (⟨1, ![1]⟩ : Shape).Idx → EReal) : (⟨2, ![B, 1]⟩ : Shape).Idx → EReal :=
  fun i => rowDirect x s cw cb (seriesOf i)

/-- and the kernel's way. -/
def probExpanded {B : Nat} (x : (⟨3, ![B, 256, 64]⟩ : Shape).Idx → EReal) (s : (⟨2, ![128, 64]⟩ : Shape).Idx → EReal)
    (cw : (⟨2, ![1, 128]⟩ : Shape).Idx → EReal) (cb : (⟨1, ![1]⟩ : Shape).Idx → EReal) : (⟨2, ![B, 1]⟩ : Shape).Idx → EReal :=
  fun i => rowExpanded x s cw cb (seriesOf i)

theorem probExpanded_eq_probDirect {B : Nat} (x : (⟨3, ![B, 256, 64]⟩ : Shape).Idx → EReal)
    (s : (⟨2, ![128, 64]⟩ : Shape).Idx → EReal) (cw : (⟨2, ![1, 128]⟩ : Shape).Idx → EReal) (cb : (⟨1, ![1]⟩ : Shape).Idx → EReal)
    (hx : ∀ j, ∃ r : ℝ, x j = r) (hs : ∀ j, ∃ r : ℝ, s j = r) : probExpanded x s cw cb = probDirect x s cw cb :=
  funext fun i => rowExpanded_eq_rowDirect x s cw cb hx hs (seriesOf i)

end Cert.Shapelet

end
-- ==== Proof.Layout.lean ====
/-
  The kernel body's reductions and changes of layout, each read at an index over literal coordinates at the extended
  reals: a sum over the last axis is the sum over that axis's coordinate; the minimum over the windows is the fold of
  `min` from `+∞`; a shape cast keeps the row-major position (row `256 p + w` of the flattened block is window `w` of
  series `p`); a broadcast reads the operand's one entry along each repeated axis; the matrix product into a zero
  accumulator is the sum over the contraction index.
-/
import proofs.«179785_j65755949302130_1_alg».proof.Proof.Gen.KernelIdeal.Skeleton
import proofs.«179785_j65755949302130_1_alg».proof.Proof.Distance
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.Reduce

noncomputable section

namespace Cert.KernelIdeal.Layout

open Cert.KernelIdeal Cert.KernelIdeal.Gen Idealize.ShloMosaic Idealize.ShloMosaic.ValueIdx
open Cert.Shapelet

/-! ## Sums and the minimum over one axis, at literal coordinates -/

/-- A sum over the last axis of a `[32, 256, 64]` vector, at (series, window). -/
theorem sumLen3_apply (u : S32x256x64.Idx → EReal) (h : S32x256x64.Reduces [2] S32x256) (hφ : FKind.Formats .f32)
    (hacc : (0x00000000#32 : BitVec 32) = FKind.add.neutral .f32 hφ) (p : Fin 32) (w : Fin 256) :
    multiReduction (F := Ideal) (φ := .f32) .add [2] S32x256 u 0x00000000#32 h hφ hacc (ix2 p w) = ∑ l : Fin 64, u (ix3 p w l) := by
  refine (Ideal.multiReduction_add_single u 0x00000000#32 h hφ hacc (ix2 p w)).trans ?_
  refine Finset.sum_congr rfl fun l _ => congrArg u ?_
  exact funext fun a => Fin.ext (by match a with | ⟨0, _⟩ => rfl | ⟨1, _⟩ => rfl | ⟨2, _⟩ => rfl)

/-- A sum over the last axis of a `[128, 64]` vector, at a shapelet. -/
theorem sumLen2_apply (u : S128x64.Idx → EReal) (h : S128x64.Reduces [1] S128) (hφ : FKind.Formats .f32)
    (hacc : (0x00000000#32 : BitVec 32) = FKind.add.neutral .f32 hφ) (n : Fin 128) :
    multiReduction (F := Ideal) (φ := .f32) .add [1] S128 u 0x00000000#32 h hφ hacc (ix1 n) = ∑ l : Fin 64, u (ix2 n l) := by
  refine (Ideal.multiReduction_add_single u 0x00000000#32 h hφ hacc (ix1 n)).trans ?_
  refine Finset.sum_congr rfl fun l _ => congrArg u ?_
  exact funext fun a => Fin.ext (by match a with | ⟨0, _⟩ => rfl | ⟨1, _⟩ => rfl)

/-- A sum over the shapelets of a `[32, 128]` vector, at a series. -/
theorem sumShapelets_apply (u : S32x128.Idx → EReal) (h : S32x128.Reduces [1] S32) (hφ : FKind.Formats .f32)
    (hacc : (0x00000000#32 : BitVec 32) = FKind.add.neutral .f32 hφ) (p : Fin 32) :
    multiReduction (F := Ideal) (φ := .f32) .add [1] S32 u 0x00000000#32 h hφ hacc (ix1 p) = ∑ n : Fin 128, u (ix2 p n) := by
  refine (Ideal.multiReduction_add_single u 0x00000000#32 h hφ hacc (ix1 p)).trans ?_
  refine Finset.sum_congr rfl fun n _ => congrArg u ?_
  exact funext fun a => Fin.ext (by match a with | ⟨0, _⟩ => rfl | ⟨1, _⟩ => rfl)

/-- The minimum over the windows of a `[32, 256, 128]` vector, at (series, shapelet): the fold of `min` from `+∞`. -/
theorem minWindows_apply (u : S32x256x128.Idx → EReal) (h : S32x256x128.Reduces [1] S32x128) (hφ : FKind.Formats .f32)
    (hacc : (0x7F800000#32 : BitVec 32) = FKind.minimumf.neutral .f32 hφ) (p : Fin 32) (n : Fin 128) :
    multiReduction (F := Ideal) (φ := .f32) .minimumf [1] S32x128 u 0x7F800000#32 h hφ hacc (ix2 p n)
      = (Finset.univ : Finset (Fin 256)).fold min ⊤ fun w => u (ix3 p w n) := by
  refine (multiReduction_minimumf_eq_fold (F := Ideal) (φ := .f32) u 0x7F800000#32 h hφ hacc (ix2 p n)).trans ?_
  refine (h.fold_filter_drop_single _ _ u (ix2 p n)).trans ?_
  show (Finset.univ : Finset (Fin 256)).fold min (Ideal.ofBits .f32 0x7F800000#32) (fun w => u (h.lift (ix2 p n) w)) = _
  rw [ofBits_inf]
  refine congrArg (fun f => Finset.fold min ⊤ f Finset.univ) (funext fun w => congrArg u ?_)
  exact funext fun a => Fin.ext (by match a with | ⟨0, _⟩ => rfl | ⟨1, _⟩ => rfl | ⟨2, _⟩ => rfl)

/-! ## Changes of layout, at literal coordinates -/

/-- `[32, 256] → [32, 256, 1]`: a trailing unit axis added. -/
theorem castTrailing_apply (u : S32x256.Idx → EReal) (h : S32x256.ShapeCasts S32x256x1) (p : Fin 32) (w : Fin 256) (z : Fin 1) :
    shapeCast S32x256x1 u h (ix3 p w z) = u (ix2 p w) :=
  shapeCast_apply u h (ix3 p w z) (ix2 p w) (by
    rw [Shape.rowMajor_val_two, Shape.rowMajor_val_three]
    show p.val * 256 + w.val = (p.val * 256 + w.val) * 1 + z.val
    omega)

/-- `[128] → [1, 1, 128]`: two leading unit axes added. -/
theorem castLeading_apply (u : S128.Idx → EReal) (h : S128.ShapeCasts S1x1x128) (z z' : Fin 1) (n : Fin 128) :
    shapeCast S1x1x128 u h (ix3 z z' n) = u (ix1 n) :=
  shapeCast_apply u h (ix3 z z' n) (ix1 n) (by
    rw [Shape.rowMajor_val_one, Shape.rowMajor_val_three]
    show n.val = (z.val * 1 + z'.val) * 128 + n.val
    omega)

/-- `[32, 256, 1] → [32, 256, 128]`: the one column repeated along the shapelets. -/
theorem bcastColumn_apply (u : S32x256x1.Idx → EReal) (h : S32x256x1.Broadcasts S32x256x128) (p : Fin 32) (w : Fin 256) (n : Fin 128) :
    broadcastTo S32x256x128 u h (ix3 p w n) = u (ix3 p w 0) :=
  broadcastTo_apply u h (ix3 p w n) (ix3 p w 0) fun a => by
    match a with
    | ⟨0, _⟩ => rfl
    | ⟨1, _⟩ => rfl
    | ⟨2, _⟩ => rfl

/-- `[1, 1, 128] → [32, 256, 128]`: the one row repeated over series and windows. -/
theorem bcastRow3_apply (u : S1x1x128.Idx → EReal) (h : S1x1x128.Broadcasts S32x256x128) (p : Fin 32) (w : Fin 256) (n : Fin 128) :
    broadcastTo S32x256x128 u h (ix3 p w n) = u (ix3 0 0 n) :=
  broadcastTo_apply u h (ix3 p w n) (ix3 0 0 n) fun a => by
    match a with
    | ⟨0, _⟩ => rfl
    | ⟨1, _⟩ => rfl
    | ⟨2, _⟩ => rfl

/-- `[32] → [32, 1]`: a trailing unit axis added. -/
theorem castColumn_apply (u : S32.Idx → EReal) (h : S32.ShapeCasts S32x1) (p : Fin 32) (z : Fin 1) :
    shapeCast S32x1 u h (ix2 p z) = u (ix1 p) :=
  shapeCast_apply u h (ix2 p z) (ix1 p) (by
    rw [Shape.rowMajor_val_one, Shape.rowMajor_val_two]
    show p.val = p.val * 1 + z.val
    omega)

/-- `[1] → [1, 1]`. -/
theorem castUnit_apply (u : S1.Idx → EReal) (h : S1.ShapeCasts S1x1) (z z' : Fin 1) :
    shapeCast S1x1 u h (ix2 z z') = u (ix1 0) :=
  shapeCast_apply u h (ix2 z z') (ix1 0) (by
    rw [Shape.rowMajor_val_one, Shape.rowMajor_val_two]
    show 0 = z.val * 1 + z'.val
    omega)

/-- `[1, 1] → [32, 1]`: the one entry repeated over the series. -/
theorem bcastUnit_apply (u : S1x1.Idx → EReal) (h : S1x1.Broadcasts S32x1) (p : Fin 32) (z : Fin 1) :
    broadcastTo S32x1 u h (ix2 p z) = u (ix2 0 0) :=
  broadcastTo_apply u h (ix2 p z) (ix2 0 0) fun a => by
    match a with
    | ⟨0, _⟩ => rfl
    | ⟨1, _⟩ => rfl

/-! ## The matrix product -/

theorem lhs_dot_0 (i : S8192x128.Idx) (q : dot_S8192x64_S64x128_S8192x128_1_0_0_1_n_n.contr.Idx) :
    (dot_S8192x64_S64x128_S8192x128_1_0_0_1_n_n.lhsIdx i q 0).val = (i 0).val := by
  unfold DotDims.lhsIdx
  rw [dif_neg (show ¬(0 : Fin S8192x64.rank) ∈ dot_S8192x64_S64x128_S8192x128_1_0_0_1_n_n.lhsBatch by decide), dif_pos (show (0 : Fin S8192x64.rank) ∈ dot_S8192x64_S64x128_S8192x128_1_0_0_1_n_n.lhsNonContracting by decide)]
  rfl
theorem lhs_dot_1 (i : S8192x128.Idx) (q : dot_S8192x64_S64x128_S8192x128_1_0_0_1_n_n.contr.Idx) :
    (dot_S8192x64_S64x128_S8192x128_1_0_0_1_n_n.lhsIdx i q 1).val = (q ⟨0, by decide⟩).val :=
  dot_S8192x64_S64x128_S8192x128_1_0_0_1_n_n.lhsIdx_val_of_single rfl i q
theorem rhs_dot_0 (i : S8192x128.Idx) (q : dot_S8192x64_S64x128_S8192x128_1_0_0_1_n_n.contr.Idx) :
    (dot_S8192x64_S64x128_S8192x128_1_0_0_1_n_n.rhsIdx i q 0).val = (q ⟨0, by decide⟩).val :=
  dot_S8192x64_S64x128_S8192x128_1_0_0_1_n_n.rhsIdx_val_of_single rfl i q
theorem rhs_dot_1 (i : S8192x128.Idx) (q : dot_S8192x64_S64x128_S8192x128_1_0_0_1_n_n.contr.Idx) :
    (dot_S8192x64_S64x128_S8192x128_1_0_0_1_n_n.rhsIdx i q 1).val = (i 1).val := by
  unfold DotDims.rhsIdx
  rw [dif_neg (show ¬(1 : Fin S64x128.rank) ∈ dot_S8192x64_S64x128_S8192x128_1_0_0_1_n_n.rhsBatch by decide), dif_pos (show (1 : Fin S64x128.rank) ∈ dot_S8192x64_S64x128_S8192x128_1_0_0_1_n_n.rhsNonContracting by decide)]
  rfl

/-- The matrix product into a zero accumulator, at (row, shapelet): the sum over the contraction index. -/
theorem product_apply (A : S8192x64.Idx → EReal) (Bm : S64x128.Idx → EReal) (r : Fin 8192) (n : Fin 128) :
    FloatOps.matmul (F := Ideal) (φ₁ := .bf16) (φ₂ := .bf16) dot_S8192x64_S64x128_S8192x128_1_0_0_1_n_n none A Bm (constant (F := Ideal) S8192x128 .f32 0x00000000#32) (ix2 r n)
      = ∑ l : Fin 64, A (ix2 r l) * Bm (ix2 l n) := by
  rw [Ideal.matmul_constant_zero_apply, ← Equiv.sum_comp (ValueIdx.contrEquiv1 dot_S8192x64_S64x128_S8192x128_1_0_0_1_n_n 64 rfl rfl).symm]
  refine Finset.sum_congr rfl fun k _ => ?_
  have hk := ValueIdx.contrEquiv1_symm_val dot_S8192x64_S64x128_S8192x128_1_0_0_1_n_n 64 rfl rfl k
  have el : dot_S8192x64_S64x128_S8192x128_1_0_0_1_n_n.lhsIdx (ix2 r n) ((ValueIdx.contrEquiv1 dot_S8192x64_S64x128_S8192x128_1_0_0_1_n_n 64 rfl rfl).symm k) = ix2 r k := funext fun a => Fin.ext (by
    match a with
    | ⟨0, _⟩ => exact lhs_dot_0 _ _
    | ⟨1, _⟩ => exact (lhs_dot_1 _ _).trans hk)
  have er : dot_S8192x64_S64x128_S8192x128_1_0_0_1_n_n.rhsIdx (ix2 r n) ((ValueIdx.contrEquiv1 dot_S8192x64_S64x128_S8192x128_1_0_0_1_n_n 64 rfl rfl).symm k) = ix2 k n := funext fun a => Fin.ext (by
    match a with
    | ⟨0, _⟩ => exact (rhs_dot_0 _ _).trans hk
    | ⟨1, _⟩ => exact rhs_dot_1 _ _)
  rw [el, er]

/-- Row `256 p + w` of the flattened block. -/
abbrev flatRow (p : Fin 32) (w : Fin 256) : Fin 8192 := ⟨p.val * 256 + w.val, by have := p.isLt; have := w.isLt; omega⟩

/-- `[8192, 128] → [32, 256, 128]`: row `256 p + w` is (series `p`, window `w`). -/
theorem unflatten_apply (u : S8192x128.Idx → EReal) (h : S8192x128.ShapeCasts S32x256x128) (p : Fin 32) (w : Fin 256) (n : Fin 128) :
    shapeCast S32x256x128 u h (ix3 p w n) = u (ix2 (flatRow p w) n) :=
  shapeCast_apply u h (ix3 p w n) (ix2 (flatRow p w) n) (by rw [Shape.rowMajor_val_two, Shape.rowMajor_val_three]; rfl)

/-- `[32, 256, 64] → [8192, 64]`: the same the other way. -/
theorem flatten_apply (u : S32x256x64.Idx → EReal) (h : S32x256x64.ShapeCasts S8192x64) (p : Fin 32) (w : Fin 256) (l : Fin 64) :
    shapeCast S8192x64 u h (ix2 (flatRow p w) l) = u (ix3 p w l) :=
  shapeCast_apply u h (ix2 (flatRow p w) l) (ix3 p w l) (by rw [Shape.rowMajor_val_two, Shape.rowMajor_val_three]; rfl)

end Cert.KernelIdeal.Layout

end
-- ==== Proof.Payload.lean ====
/-
  The kernel body's one stored value, read index by index at the extended reals: for the loaded block `x` of `32`
  series, the shapelets `s`, the weight row `cw` and the bias `cb`, the entry at series `p` is the logistic of
  `∑ₙ √(max (min over windows w of ((‖x p w‖² + ‖s n‖²) - 2 ⟨x p w, s n⟩)) 0) · cw n + cb` — `Cert.Shapelet.rowExpanded`
  of the four loads. The inner product comes from a matrix product of the block flattened to `8192` rows with the
  transposed shapelets (a change of float format is the identity here).
-/
import proofs.«179785_j65755949302130_1_alg».proof.Proof.Layout

noncomputable section

namespace Cert.KernelIdeal.Payload

open Cert.KernelIdeal Cert.KernelIdeal.Gen Cert.KernelIdeal.Layout Idealize.ShloMosaic Idealize.ShloMosaic.ValueIdx
open Cert.Shapelet

/-! ## The body's value, layer by layer

The body's arithmetic is a tower of whole-vector operations. Each layer is named here and read at an index by its own
lemma, so that no step handles more than one layer's term; the tower is the printed payload by unfolding. -/

/-- The scalar constants `+0.0` and `2.0`. -/
theorem scalar_ofBits (b : BitVec 32) : Scalar.ofBits (F := Ideal) .f32 b = Ideal.ofBits .f32 b := rfl
theorem scalar_zero : Scalar.ofBits (F := Ideal) .f32 0x00000000#32 = (0 : EReal) := (scalar_ofBits _).trans ofBits_zero
theorem scalar_two : Scalar.ofBits (F := Ideal) .f32 0x40000000#32 = ((2 : ℝ) : EReal) := (scalar_ofBits _).trans ofBits_two

/-- The inner products of every window with every shapelet, as `[32, 256, 128]`. -/
def innerV (v0 : S32x256x64.Idx → EReal) (v1 : S128x64.Idx → EReal) : FVec Ideal S32x256x128 .f32 :=
  shapeCast S32x256x128
    (matmul (F := Ideal) dot_S8192x64_S64x128_S8192x128_1_0_0_1_n_n none
      (truncf (F := Ideal) .bf16 (shapeCast S8192x64 v0 shapeCasts_S32x256x64_S8192x64 : FVec Ideal S8192x64 .f32) bitsLt_bf16_f32)
      (transpose S64x128 [1, 0] (truncf (F := Ideal) .bf16 (v1 : FVec Ideal S128x64 .f32) bitsLt_bf16_f32) transposes_S128x64_p1_0_S64x128)
      (constant (F := Ideal) S8192x128 .f32 0x00000000#32))
    shapeCasts_S8192x128_S32x256x128

theorem innerV_apply (v0 : S32x256x64.Idx → EReal) (v1 : S128x64.Idx → EReal) (p : Fin 32) (w : Fin 256) (n : Fin 128) :
    innerV v0 v1 (ix3 p w n) = ∑ l : Fin 64, v0 (ix3 p w l) * v1 (ix2 n l) := by
  unfold innerV
  refine (unflatten_apply _ _ p w n).trans ((product_apply _ _ (flatRow p w) n).trans (Finset.sum_congr rfl fun l _ => ?_))
  exact congrArg₂ (· * ·) (flatten_apply v0 _ p w l) (transpose_ix2_apply (fun j => v1 j) _ l n)

/-- The windows' squared norms, repeated along the shapelets. -/
def normXV (v0 : S32x256x64.Idx → EReal) : FVec Ideal S32x256x128 .f32 :=
  broadcastTo S32x256x128
    (shapeCast S32x256x1 (multiReduction (F := Ideal) (φ := .f32) .add [2] S32x256 (mulf (F := Ideal) (φ := .f32) v0 v0) 0x00000000#32 reduces_S32x256x64_S32x256 (.inl rfl) rfl) shapeCasts_S32x256_S32x256x1)
    broadcasts_S32x256x1_S32x256x128

theorem normXV_apply (v0 : S32x256x64.Idx → EReal) (p : Fin 32) (w : Fin 256) (n : Fin 128) :
    normXV v0 (ix3 p w n) = ∑ l : Fin 64, v0 (ix3 p w l) * v0 (ix3 p w l) := by
  unfold normXV
  exact (bcastColumn_apply _ _ p w n).trans ((castTrailing_apply _ _ p w 0).trans (sumLen3_apply _ _ _ _ p w))

/-- The shapelets' squared norms, repeated over series and windows. -/
def normSV (v1 : S128x64.Idx → EReal) : FVec Ideal S32x256x128 .f32 :=
  broadcastTo S32x256x128
    (shapeCast S1x1x128 (multiReduction (F := Ideal) (φ := .f32) .add [1] S128 (mulf (F := Ideal) (φ := .f32) v1 v1) 0x00000000#32 reduces_S128x64_S128 (.inl rfl) rfl) shapeCasts_S128_S1x1x128)
    broadcasts_S1x1x128_S32x256x128

theorem normSV_apply (v1 : S128x64.Idx → EReal) (p : Fin 32) (w : Fin 256) (n : Fin 128) :
    normSV v1 (ix3 p w n) = ∑ l : Fin 64, v1 (ix2 n l) * v1 (ix2 n l) := by
  unfold normSV
  exact (bcastRow3_apply _ _ p w n).trans ((castLeading_apply _ _ 0 0 n).trans (sumLen2_apply _ _ _ _ n))

/-- The squared distances through the norm identity. -/
def sqDistV (v0 : S32x256x64.Idx → EReal) (v1 : S128x64.Idx → EReal) : FVec Ideal S32x256x128 .f32 :=
  subf (F := Ideal) (φ := .f32) (addf (F := Ideal) (φ := .f32) (normXV v0) (normSV v1))
    (mulf (F := Ideal) (φ := .f32) (broadcast S32x256x128 (Scalar.ofBits (F := Ideal) .f32 0x40000000#32)) (innerV v0 v1))

theorem sqDistV_apply (v0 : S32x256x64.Idx → EReal) (v1 : S128x64.Idx → EReal) (p : Fin 32) (w : Fin 256) (n : Fin 128) :
    sqDistV v0 v1 (ix3 p w n) = sqDistExpanded (window v0 p w) (shapelet v1 n) := by
  have e : sqDistV v0 v1 (ix3 p w n)
      = (normXV v0 (ix3 p w n) + normSV v1 (ix3 p w n)) - Scalar.ofBits (F := Ideal) .f32 0x40000000#32 * innerV v0 v1 (ix3 p w n) := rfl
  rw [e, normXV_apply, normSV_apply, innerV_apply, scalar_two]
  rfl

/-- The root of a value clamped below by a constant splat, at an index. -/
theorem clampRoot_apply (a : S32x128.Idx → EReal) (c : EReal) (i : S32x128.Idx) :
    sqrt (F := Ideal) (φ := .f32) (maximumf (F := Ideal) (φ := .f32) a (broadcast S32x128 c)) i = Ideal.sqrt (max (a i) c) := rfl

/-- The least distance to each shapelet: the minimum over the windows, clamped at zero, rooted. -/
def minDistV (v0 : S32x256x64.Idx → EReal) (v1 : S128x64.Idx → EReal) : FVec Ideal S32x128 .f32 :=
  sqrt (F := Ideal) (φ := .f32) (maximumf (F := Ideal) (φ := .f32)
    (multiReduction (F := Ideal) (φ := .f32) .minimumf [1] S32x128 (sqDistV v0 v1) 0x7F800000#32 reduces_S32x256x128_S32x128 (.inl rfl) rfl)
    (broadcast S32x128 (Scalar.ofBits (F := Ideal) .f32 0x00000000#32)))

theorem minDistV_apply (v0 : S32x256x64.Idx → EReal) (v1 : S128x64.Idx → EReal) (p : Fin 32) (n : Fin 128) :
    minDistV v0 v1 (ix2 p n)
      = Ideal.sqrt (max ((Finset.univ : Finset (Fin 256)).fold min ⊤ fun w => sqDistExpanded (window v0 p w) (shapelet v1 n)) 0) := by
  unfold minDistV
  refine (clampRoot_apply _ _ _).trans (congrArg Ideal.sqrt (congrArg₂ max ?_ scalar_zero))
  refine (minWindows_apply _ _ _ _ p n).trans ?_
  exact congrArg (fun f : Fin 256 → EReal => Finset.fold min ⊤ f Finset.univ) (funext fun (w : Fin 256) => sqDistV_apply v0 v1 p w n)

/-- The classifier's weighted sum over the shapelets. -/
def scoreV (v0 : S32x256x64.Idx → EReal) (v1 : S128x64.Idx → EReal) (v24 : S1x128.Idx → EReal) : FVec Ideal S32x1 .f32 :=
  shapeCast S32x1
    (multiReduction (F := Ideal) (φ := .f32) .add [1] S32
      (mulf (F := Ideal) (φ := .f32) (minDistV v0 v1) (broadcastTo S32x128 v24 broadcasts_S1x128_S32x128))
      0x00000000#32 reduces_S32x128_S32 (.inl rfl) rfl)
    shapeCasts_S32_S32x1

theorem scoreV_apply (v0 : S32x256x64.Idx → EReal) (v1 : S128x64.Idx → EReal) (v24 : S1x128.Idx → EReal) (p : Fin 32) (z : Fin 1) :
    scoreV v0 v1 v24 (ix2 p z) = ∑ n : Fin 128, minDistV v0 v1 (ix2 p n) * v24 (ix2 0 n) := by
  unfold scoreV
  refine (castColumn_apply _ _ p z).trans ((sumShapelets_apply _ _ _ _ p).trans (Finset.sum_congr rfl fun n _ => ?_))
  refine (mulf_apply (φ := .f32) (minDistV v0 v1) (broadcastTo S32x128 v24 broadcasts_S1x128_S32x128) (ix2 p n)).trans ?_
  exact congrArg (minDistV v0 v1 (ix2 p n) * ·) (broadcastTo_1b_ab_apply (fun j => v24 j) broadcasts_S1x128_S32x128 p n)

/-- The bias, repeated over the series. -/
def biasV (v25 : S1.Idx → EReal) : FVec Ideal S32x1 .f32 :=
  broadcastTo S32x1 (shapeCast S1x1 v25 shapeCasts_S1_S1x1) broadcasts_S1x1_S32x1

theorem biasV_apply (v25 : S1.Idx → EReal) (p : Fin 32) (z : Fin 1) : biasV v25 (ix2 p z) = v25 (ix1 0) := by
  unfold biasV
  exact (bcastUnit_apply _ _ p z).trans (castUnit_apply _ _ 0 0)

/-- The printed payload is this tower. -/
theorem pay_eq (v0 : S32x256x64.Idx → EReal) (v1 : S128x64.Idx → EReal) (v24 : S1x128.Idx → EReal) (v25 : S1.Idx → EReal) :
    k0_pay1 (F := Ideal) v0 v1 v24 v25 = logistic (F := Ideal) (φ := .f32) (addf (F := Ideal) (φ := .f32) (scoreV v0 v1 v24) (biasV v25)) := rfl

/-- THE BODY'S VALUE at series `p` of the block is `rowExpanded` of the four loads. -/
theorem pay_apply (v0 : S32x256x64.Idx → EReal) (v1 : S128x64.Idx → EReal) (v24 : S1x128.Idx → EReal) (v25 : S1.Idx → EReal)
    (p : Fin 32) (z : Fin 1) :
    k0_pay1 (F := Ideal) v0 v1 v24 v25 (ix2 p z) = rowExpanded v0 v1 v24 v25 p := by
  rw [pay_eq]
  have e : logistic (F := Ideal) (φ := .f32) (addf (F := Ideal) (φ := .f32) (scoreV v0 v1 v24) (biasV v25)) (ix2 p z)
      = Ideal.logistic (scoreV v0 v1 v24 (ix2 p z) + biasV v25 (ix2 p z)) := rfl
  rw [e, scoreV_apply, biasV_apply]
  unfold rowExpanded
  refine congrArg (fun s => Ideal.logistic (s + v25 (ix1 0))) (Finset.sum_congr rfl fun n _ => ?_)
  rw [minDistV_apply]

end Cert.KernelIdeal.Payload

end
-- ==== Proof.Blocks.lean ====
/-
  From the kernel's blocks to its result array. The grid has two points; point `t` stages series `32 t … 32 t + 31` of
  the batch (the shapelets, the weights and the bias whole, at every point) and writes back rows `32 t … 32 t + 31` of the
  `[64, 1]` result. What it writes is the body's value of its loads, which at row `p` of the block is the expanded-distance
  probability of series `32 t + p` of the WHOLE batch: the block's row `p` is the batch's row `32 t + p`. The two blocks
  cover the result, so after the run the result array is `probExpanded` of the four argument arrays.
-/
import proofs.«179785_j65755949302130_1_alg».proof.Proof.Gen.KernelIdeal.Value
import proofs.«179785_j65755949302130_1_alg».proof.Proof.Payload
import proofs.«179785_j65755949302130_1_alg».proof.Proof.Distance
import Idealize.ShloMosaic.Lib.Pipeline.Value
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Shapelet

variable (m : (ℓ : Loc nD τ sig) → Buf (Elt Ideal) ℓ) (ρ : Dev nD → PrngReg)

theorem hz1 : (![0] : Fin 1 → Nat) = fun _ => 0 := funext fun a => by fin_cases a; rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The four argument arrays as the region finds them, at their literal types. -/
abbrev seriesArr (c : Dev nD) : S64x256x64.Idx → EReal := V m c main_arg0
abbrev shapeletArr (c : Dev nD) : S128x64.Idx → EReal := V m c main_arg1
abbrev weightArr (c : Dev nD) : S1x128.Idx → EReal := V m c main_arg2
abbrev biasArr (c : Dev nD) : S1.Idx → EReal := V m c main_arg3

/-- What the result array ends holding. -/
abbrev resultArr (c : Dev nD) : S64x1.Idx → EReal :=
  probExpanded (seriesArr m c) (shapeletArr m c) (weightArr m c) (biasArr m c)

/-- The printed index maps, decided over the two grid points: the series' block moves with the result's along the batch
    axis; every other block index is zero. -/
theorem idx_facts : ∀ t : Fin cfg0.N, win0_0.index t (0 : Fin 3) = win0_4.index t (0 : Fin 2)
    ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0
    ∧ win0_4.index t (1 : Fin 2) = 0 ∧ win0_4.index t (0 : Fin 2) ≤ 1 :=
  (by decide +kernel : ∀ t : Fin grid0.N, _)

/-- Both rows of blocks of the result are some point's. -/
theorem idx_onto : ∀ q : Fin 2, ∃ t : Fin cfg0.N, win0_4.index t = ![q.val, 0] :=
  (by decide +kernel : ∀ q : Fin 2, ∃ t : Fin grid0.N, win0_4.index t = ![q.val, 0])

/-! ## The input blocks, read inside their arrays -/

/-- Window `w` of row `p` of the series' block at point `t` is window `w` of series `32·(block index) + p`. -/
theorem seriesBlk_apply (c : Dev nD) (t : Fin cfg0.N) (p : Fin 32) (w : Fin 256) (l : Fin 64) (b : Fin 64)
    (hb : b.val = win0_4.index t (0 : Fin 2) * 32 + 1 * p.val) :
    (iblk m c 0 t : S32x256x64.Idx → EReal) (ix3 p w l) = seriesArr m c (ix3 b w l) := by
  obtain ⟨e0, e1, e2, -⟩ := idx_facts t
  show V m c main_arg0 (((cfg0.win 0).blk t).view.emb (ix3 p w l)) = V m c main_arg0 (ix3 b w l)
  refine congrArg (V m c main_arg0) (funext fun a => Fin.ext ?_)
  match a with
  | ⟨0, _⟩ =>
    show win0_0.index t (0 : Fin 3) * 32 + 1 * p.val = b.val
    omega
  | ⟨1, _⟩ =>
    show win0_0.index t (1 : Fin 3) * 256 + 1 * w.val = w.val
    omega
  | ⟨2, _⟩ =>
    show win0_0.index t (2 : Fin 3) * 64 + 1 * l.val = l.val
    omega

/-- The shapelets' block is the shapelets. -/
theorem shapeletBlk_apply (c : Dev nD) (t : Fin cfg0.N) (n : Fin 128) (l : Fin 64) :
    (iblk m c 1 t : S128x64.Idx → EReal) (ix2 n l) = shapeletArr m c (ix2 n l) := by
  obtain ⟨-, -, -, e3, e4, -⟩ := idx_facts t
  show V m c main_arg1 (((cfg0.win 1).blk t).view.emb (ix2 n l)) = V m c main_arg1 (ix2 n l)
  refine congrArg (V m c main_arg1) (funext fun a => Fin.ext ?_)
  match a with
  | ⟨0, _⟩ =>
    show win0_1.index t (0 : Fin 2) * 128 + 1 * n.val = n.val
    omega
  | ⟨1, _⟩ =>
    show win0_1.index t (1 : Fin 2) * 64 + 1 * l.val = l.val
    omega

/-- The weights' block is the weights. -/
theorem weightBlk_apply (c : Dev nD) (t : Fin cfg0.N) (n : Fin 128) :
    (iblk m c 2 t : S1x128.Idx → EReal) (ix2 0 n) = weightArr m c (ix2 0 n) := by
  obtain ⟨-, -, -, -, -, e5, e6, -⟩ := idx_facts t
  show V m c main_arg2 (((cfg0.win 2).blk t).view.emb (ix2 0 n)) = V m c main_arg2 (ix2 0 n)
  refine congrArg (V m c main_arg2) (funext fun a => Fin.ext ?_)
  match a with
  | ⟨0, _⟩ =>
    show win0_2.index t (0 : Fin 2) * 1 + 1 * 0 = 0
    omega
  | ⟨1, _⟩ =>
    show win0_2.index t (1 : Fin 2) * 128 + 1 * n.val = n.val
    omega

/-- The bias's block is the bias. -/
theorem biasBlk_apply (c : Dev nD) (t : Fin cfg0.N) :
    (iblk m c 3 t : S1.Idx → EReal) (ix1 0) = biasArr m c (ix1 0) := by
  obtain ⟨-, -, -, -, -, -, -, e7, -⟩ := idx_facts t
  show V m c main_arg3 (((cfg0.win 3).blk t).view.emb (ix1 0)) = V m c main_arg3 (ix1 0)
  refine congrArg (V m c main_arg3) (funext fun a => Fin.ext ?_)
  match a with
  | ⟨0, _⟩ =>
    show win0_3.index t (0 : Fin 1) * 1 + 1 * 0 = 0
    omega

/-! ## What a point writes back, the cover, the array -/

/-- WHAT POINT `t` WRITES BACK is block `t` of `resultArr`. -/
theorem flushed_eq (c : Dev nD) (t : Fin cfg0.N) :
    (dats m 0 c).flushed 4 t = ((cfg0.win 4).blk t).view.read (Elt Ideal) (resultArr m c) := by
  rw [Cert.KernelIdeal.Value.flushed4]
  unfold out0_4
  rw [View.canon_unit_zero hz2]
  simp only [View.ld_unit_zero (S := S32x256x64) hz3, View.ld_unit_zero (S := S128x64) hz2, View.ld_unit_zero (S := S1x128) hz2,
    View.ld_unit_zero (S := S1) hz1]
  funext j
  obtain ⟨p, z, rfl⟩ : ∃ (p : Fin 32) (z : Fin 1), j = ix2 p z := ⟨j 0, j 1, eq_ix2 j⟩
  show k0_pay1 (F := Ideal) (iblk m c 0 t) (iblk m c 1 t) (iblk m c 2 t) (iblk m c 3 t) (ix2 p z)
    = resultArr m c (((cfg0.win 4).blk t).view.emb (ix2 p z))
  refine (Cert.KernelIdeal.Payload.pay_apply (iblk m c 0 t) (iblk m c 1 t) (iblk m c 2 t) (iblk m c 3 t) p z).trans ?_
  show _ = rowExpanded (seriesArr m c) (shapeletArr m c) (weightArr m c) (biasArr m c) (seriesOf (((cfg0.win 4).blk t).view.emb (ix2 p z)))
  exact rowExpanded_congr _ _ _ _ _ _ _ _ p _ (fun w l => seriesBlk_apply m c t p w l _ rfl) (shapeletBlk_apply m c t)
    (weightBlk_apply m c t) (biasBlk_apply m c t)

/-- An index of the result is in point `t`'s block iff each coordinate is in the block's range on its axis. -/
theorem mem_blk (t : Fin cfg0.N) (i : S64x1.Idx) :
    i ∈ ((cfg0.win 4).blk t).view.set ↔ ∀ a : Fin 2, win0_4.index t a * S32x1.size a ≤ (i a).val ∧ (i a).val < win0_4.index t a * S32x1.size a + S32x1.size a := by
  show i ∈ ((View.whole main_v0).slice (win0_4.rect t)).set ↔ _
  rw [View.set_slice_whole, Rect.mem_set_unit]
  exact Iff.rfl

/-- Every index of the result is in some point's block: row `r` in point `r / 32`'s. -/
theorem cover (i : S64x1.Idx) : ∃ t : Fin cfg0.N, (cfg0.win 4).flush t = true ∧ i ∈ ((cfg0.win 4).blk t).view.set := by
  have hi0 : (i 0).val < 64 := (i 0).isLt
  have hi1 : (i 1).val < 1 := (i 1).isLt
  obtain ⟨t, ht⟩ := idx_onto ⟨(i 0).val / 32, by omega⟩
  have q0 : win0_4.index t (0 : Fin 2) = (i 0).val / 32 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 32 ≤ (i 0).val ∧ (i 0).val < win0_4.index t (0 : Fin 2) * 32 + 32
    omega
  | ⟨1, _⟩ =>
    show win0_4.index t (1 : Fin 2) * 1 ≤ (i 1).val ∧ (i 1).val < win0_4.index t (1 : Fin 2) * 1 + 1
    omega

/-- THE RESULT ARRAY after the run. -/
theorem final (c : Dev nD) : (dats m 0 c).arrAt 4 cfg0.N = resultArr m c :=
  (dats m 0 c).arrAt_eq_of_cover 4 (resultArr m c) (fun t _ => flushed_eq m c t) cover

/-- The kernel's run, with the result array named: the expanded-distance probability of the argument arrays. -/
theorem run : θ_run defs (onTc (τ := τ) (main (F := Ideal))) ⟨m, fun _ => 0, ρ⟩ fun r => ∀ c : Dev nD,
      r.2.mem ((c : Thread nD τ).loc main_v0) = probExpanded (m ((c : Thread nD τ).loc main_arg0)) (m ((c : Thread nD τ).loc main_arg1))
          (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Blocks

end
-- ==== Proof.Reference.lean ====
/-
  The reference, read index by index at the extended reals: its result at series `b` is the logistic of
  `∑ₙ (min over windows w of √(∑ₗ (x b w l - s n l)²)) · cw n + cb` — `Cert.Shapelet.probDirect` of its four arguments. No
  hypothesis on the arguments is needed: every step is the operation's own reading.
-/
import proofs.«179785_j65755949302130_1_alg».proof.Proof.Gen.ReferenceIdeal.Read
import proofs.«179785_j65755949302130_1_alg».proof.Proof.Distance
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.ValueIdx
open Cert.Shapelet

/-- At the extended reals the float minimum is the order's. -/
theorem fold_minimumf {ι : Type*} (s : Finset ι) (b : EReal) (g : ι → EReal) :
    s.fold (FloatOps.minimumf (F := Ideal) (φ := .f32)) b g = s.fold min b g := rfl

/-- The squared differences summed over the shapelet length, at (series, window, shapelet). -/
theorem sumSq_apply (x0 : S64x256x64.Idx → EReal) (x1 : S128x64.Idx → EReal) (b : Fin 64) (w : Fin 256) (n : Fin 128) :
    val_main_v6 (F := Ideal) x0 x1 (ix3 b w n) = sqDistDirect (window x0 b w) (shapelet x1 n) := by
  rw [val_main_v6_apply, val_main_cst_apply]
  show Ideal.ofBits .f32 0x00000000#32 + _ = _
  rw [ofBits_zero, zero_add]
  unfold sqDistDirect
  refine Finset.sum_congr rfl fun l _ => ?_
  rw [val_main_v5_apply, val_main_v4_apply, val_main_v2_apply, val_main_v0_apply, val_main_v3_apply, val_main_v1_apply]
  have e0 : idx_main_v0 (idx_main_v2 (idx_main_v6 (ix3 b w n) l)) = ix3 b w l :=
    funext fun a => Fin.ext (by match a with | ⟨0, _⟩ => rfl | ⟨1, _⟩ => rfl | ⟨2, _⟩ => rfl)
  have e1 : idx_main_v1 (idx_main_v3 (idx_main_v6 (ix3 b w n) l)) = ix2 n l :=
    funext fun a => Fin.ext (by match a with | ⟨0, _⟩ => rfl | ⟨1, _⟩ => rfl)
  rw [e0, e1]
  rfl

/-- The least distance from a window of series `b` to shapelet `n`: the minimum, from `+∞`, of the roots. -/
theorem minDist_apply (x0 : S64x256x64.Idx → EReal) (x1 : S128x64.Idx → EReal) (b : Fin 64) (n : Fin 128) :
    val_main_v8 (F := Ideal) x0 x1 (ix2 b n)
      = (Finset.univ : Finset (Fin 256)).fold min ⊤ fun w => Ideal.sqrt (sqDistDirect (window x0 b w) (shapelet x1 n)) := by
  have hred : S64x256x128.Reduces [1] S64x128 := by decide
  unfold val_main_v8
  refine (Host.reduce_eq_fold_single FloatOps.minimumf _ _ reducesTo_S64x256x128_S64x128_d1 hred h_S_ (ix2 b n)).trans ?_
  show (Finset.univ : Finset (Fin 256)).fold min (Ideal.ofBits .f32 0x7F800000#32)
    (fun w => val_main_v7 (F := Ideal) x0 x1 (hred.lift (ix2 b n) w)) = _
  rw [ofBits_inf]
  refine congrArg (fun f : Fin 256 → EReal => Finset.fold min ⊤ f Finset.univ) (funext fun (w : Fin 256) => ?_)
  have el : hred.lift (ix2 b n) w = ix3 b w n :=
    funext fun a => Fin.ext (by match a with | ⟨0, _⟩ => rfl | ⟨1, _⟩ => rfl | ⟨2, _⟩ => rfl)
  rw [el, val_main_v7_apply, sumSq_apply]
  rfl

/-- THE REFERENCE'S RESULT is `probDirect` of its arguments. -/
theorem result_eq (x0 : S64x256x64.Idx → EReal) (x1 : S128x64.Idx → EReal) (x2 : S1x128.Idx → EReal) (x3 : S1.Idx → EReal) :
    val_main_v19 (F := Ideal) x0 x1 x2 x3 = probDirect x0 x1 x2 x3 := by
  funext i
  obtain ⟨b, z, rfl⟩ : ∃ (b : Fin 64) (z : Fin 1), i = ix2 b z := ⟨i 0, i 1, eq_ix2 i⟩
  rw [val_main_v19_apply, val_main_v18_apply, val_main_cst_2_apply, val_main_v17_apply, val_main_v16_apply, val_main_cst_1_apply,
    val_main_v15_apply, val_main_v14_apply, val_main_v13_apply, val_main_v12_apply, val_main_v11_apply, val_main_v10_apply]
  have ev : ∀ k : Fin 128, val_main_v8 (F := Ideal) x0 x1 (lidx_main_v10 (ix2 b z) k) * val_main_v9 (F := Ideal) x2 (ridx_main_v10 (ix2 b z) k)
      = ((Finset.univ : Finset (Fin 256)).fold min ⊤ fun w => Ideal.sqrt (sqDistDirect (window x0 b w) (shapelet x1 k))) * x2 (ix2 0 k) := fun k => by
    have e8 : lidx_main_v10 (ix2 b z) k = ix2 b k := funext fun a => Fin.ext (by match a with | ⟨0, _⟩ => rfl | ⟨1, _⟩ => rfl)
    have e9 : idx_main_v9 (ridx_main_v10 (ix2 b z) k) = ix2 0 k :=
      funext fun a => Fin.ext (by
        match a with
        | ⟨0, _⟩ =>
          show z.val = 0
          omega
        | ⟨1, _⟩ => rfl)
    rw [val_main_v9_apply, e8, e9, minDist_apply]
  have e3 : idx_main_v11 (idx_main_v12 (ix2 b z)) = ix1 0 := funext fun a => Fin.ext (by match a with | ⟨0, _⟩ => rfl)
  simp only [ev, e3]
  show Ideal.div (Ideal.ofBits .f32 0x3F800000#32) (Ideal.ofBits .f32 0x3F800000#32 + Ideal.exp (-(_ + x3 (ix1 0)))) = _
  rw [ofBits_one]
  rfl

end Cert.ReferenceIdeal.RefValue

end
-- ==== Proof.Finite.lean ====
/-
  What the precondition says: every float input is finite. The printed predicate compares the absolute value of every
  entry with `+∞` and conjoins the comparisons; where it holds, every entry of the series and of the shapelets is a
  real number (the weights' and the bias's finiteness is there too, and is not needed).
-/
import proofs.«179785_j65755949302130_1_alg».proof.Pre_finite_inputs
import proofs.«179785_j65755949302130_1_alg».proof.Proof.Gen.Pre_finite_inputs
import proofs.«179785_j65755949302130_1_alg».proof.Proof.Distance
import Idealize.ShloMosaic.Lib.ReduceAll
import Idealize.ShloMosaic.Lib.ValueIdx

noncomputable section

namespace Cert.Pre_finite_inputs.Finite

open Cert.Pre_finite_inputs Cert.Pre_finite_inputs.Gen Idealize.ShloMosaic Idealize.ShloMosaic.ValueIdx
open Cert.Shapelet

instance : Subsingleton S_.Idx := ⟨fun a b => funext fun d => d.elim0⟩

/-- An extended real whose absolute value is below `+∞` is a real number. -/
theorem real_of_abs_lt_top (x c : EReal) (hc : c = ⊤)
    (h : FloatOps.cmpf (F := Ideal) (φ := .f32) .olt (FloatOps.hostAbsf (F := Ideal) (φ := .f32) x) c = 1#1) : ∃ r : ℝ, x = r := by
  subst hc
  have h' : Ideal.cmp .olt (max x (-x)) ⊤ = 1#1 := h
  induction x using EReal.rec with
  | bot => simp [Ideal.cmp] at h'
  | top => simp [Ideal.cmp] at h'
  | coe r => exact ⟨r, rfl⟩

/-- Under the precondition the series and the shapelets hold real numbers. -/
theorem real_inputs (a0 : S64x256x64.Idx → EReal) (a1 : S128x64.Idx → EReal) (a2 : S1x128.Idx → EReal) (a3 : S1.Idx → EReal)
    (h : fn (F := Ideal) a0 a1 a2 a3 = fun _ => 1#1) : (∀ j, ∃ r : ℝ, a0 j = r) ∧ (∀ j, ∃ r : ℝ, a1 j = r) := by
  have h0 := congrFun h ix0
  dsimp only [fn, fn_part1] at h0
  obtain ⟨h012, -⟩ := IntOp.andi_eq_one.1 h0
  obtain ⟨h01, -⟩ := IntOp.andi_eq_one.1 h012
  obtain ⟨hx, hs⟩ := IntOp.andi_eq_one.1 h01
  refine ⟨fun j => ?_, fun j => ?_⟩
  · exact real_of_abs_lt_top (a0 j) _ ofBits_inf (Host.reduce_andi_all _ _ _ _ ix0 hx j)
  · exact real_of_abs_lt_top (a1 j) _ ofBits_inf (Host.reduce_andi_all _ _ _ _ ix0 hs j)

end Cert.Pre_finite_inputs.Finite

end
-- ==== Proof.lean ====
/-
  The certificate of a shapelet classifier: for `64` series of `256` windows of length `64`, `128` shapelets, a weight
  row and a bias, the probability `σ(∑ₙ dist(b, n) · w(n) + bias)` of each series `b`, where `dist(b, n)` is the least
  Euclidean distance from a window of series `b` to shapelet `n`.

  The reference takes the distance directly, `min_w √(∑ₗ (x b w l - s n l)²)`. The kernel, two series blocks of `32` at a
  time, takes it through the norm identity, `√(max (min_w (‖x b w‖² + ‖s n‖² - 2 ⟨x b w, s n⟩)) 0)`, the inner products by
  one matrix product. Over the extended reals the two agree when the series and the shapelets hold real numbers, which
  the precondition (every float input finite) says: the identity then holds entry by entry, both squared distances are
  one non-negative real, the root is monotone and so commutes with the minimum over the windows, and the clamp at zero
  is the identity on a non-negative minimum. The weighted sum over the shapelets is the kernel's lane sum and the
  reference's matrix-vector product — the same sum —, and the logistic is the reference's `1 / (1 + e⁻ᶻ)`.

  The modules: Distance (the mathematics, free of the programs), Layout and Payload (the kernel body's value at an
  index), Blocks (from the two blocks to the result array, and the kernel's run), Reference (the reference's result at an
  index), Finite (what the precondition says). The three frames are the generated ones; no operation was rewritten by
  the idealization, so there is nothing to preserve.
-/
import proofs.«179785_j65755949302130_1_alg».proof.Defs
import proofs.«179785_j65755949302130_1_alg».proof.Proof.Gen.Kernel
import proofs.«179785_j65755949302130_1_alg».proof.Proof.Gen.Kernel.Skeleton
import proofs.«179785_j65755949302130_1_alg».proof.Proof.Gen.Kernel.Launch
import proofs.«179785_j65755949302130_1_alg».proof.Proof.Gen.Kernel.Points
import proofs.«179785_j65755949302130_1_alg».proof.Proof.Gen.Kernel.Frame
import proofs.«179785_j65755949302130_1_alg».proof.Proof.Gen.KernelIdeal
import proofs.«179785_j65755949302130_1_alg».proof.Proof.Gen.KernelIdeal.Skeleton
import proofs.«179785_j65755949302130_1_alg».proof.Proof.Gen.KernelIdeal.Launch
import proofs.«179785_j65755949302130_1_alg».proof.Proof.Gen.KernelIdeal.Points
import proofs.«179785_j65755949302130_1_alg».proof.Proof.Gen.KernelIdeal.Frame
import proofs.«179785_j65755949302130_1_alg».proof.Proof.Gen.ReferenceIdeal
import proofs.«179785_j65755949302130_1_alg».proof.Proof.Gen.Pre_finite_inputs
import proofs.«179785_j65755949302130_1_alg».proof.Proof.Gen.KernelIdeal.Value
import proofs.«179785_j65755949302130_1_alg».proof.Proof.Gen.ReferenceIdeal.Run
import proofs.«179785_j65755949302130_1_alg».proof.Proof.Gen.ReferenceIdeal.Read
import proofs.«179785_j65755949302130_1_alg».proof.Proof.Blocks
import proofs.«179785_j65755949302130_1_alg».proof.Proof.Reference
import proofs.«179785_j65755949302130_1_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs and leaves its arguments alone. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the reference's way of writing the probabilities, `probDirect` of the arguments: the kernel's
    result is `probExpanded` of them (Blocks), which is `probDirect` where the series and the shapelets are real (Finite,
    Distance); the reference's is `probDirect` outright (Reference). -/
theorem algebraic : Cert.algebraic_KernelIdeal_ReferenceIdeal := by
  intro m ρ m' ρ' hpre hagree
  refine ⟨fun c => Cert.Shapelet.probDirect (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ⟨(h c).1.trans ?_, (h c).2⟩) (Cert.KernelIdeal.Blocks.run m ρ)
    obtain ⟨hx, hs⟩ := Cert.Pre_finite_inputs.Finite.real_inputs _ _ _ _ (hpre c)
    exact Cert.Shapelet.probExpanded_eq_probDirect _ _ _ _ hx hs
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v19_eq, Cert.ReferenceIdeal.RefValue.result_eq, (hagree c).1, (hagree c).2.1,
      (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
